-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S650000x1, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S650000x1, .f32⟩
  | .hbm, ⟨69, _⟩ => ⟨S_, .i32⟩
  | .hbm, ⟨70, _⟩ => ⟨S650000, .i32⟩
  | .hbm, ⟨71, _⟩ => ⟨S650000, .i1⟩
  | .hbm, ⟨72, _⟩ => ⟨S_, .i32⟩
  | .hbm, ⟨73, _⟩ => ⟨S650000, .i32⟩
  | .hbm, ⟨74, _⟩ => ⟨S650000, .i32⟩
  | .hbm, ⟨75, _⟩ => ⟨S650000, .i32⟩
  | .hbm, ⟨76, _⟩ => ⟨S650000x1, .i32⟩
  | .hbm, ⟨77, _⟩ => ⟨S650000x128, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S50000x128, .f32⟩
  | .hbm, ⟨82, _⟩ => ⟨S650000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S650000x1, .f32⟩
  | .hbm, ⟨88, _⟩ => ⟨S_, .i32⟩
  | .hbm, ⟨89, _⟩ => ⟨S650000, .i32⟩
  | .hbm, ⟨90, _⟩ => ⟨S650000, .i1⟩
  | .hbm, ⟨91, _⟩ => ⟨S_, .i32⟩
  | .hbm, ⟨92, _⟩ => ⟨S650000, .i32⟩
  | .hbm, ⟨93, _⟩ => ⟨S650000, .i32⟩
  | .hbm, ⟨94, _⟩ => ⟨S650000, .i32⟩
  | .hbm, ⟨95, _⟩ => ⟨S650000x1, .i32⟩
  | .hbm, ⟨96, _⟩ => ⟨S650000x128, .f32⟩
  | .hbm, ⟨97, _⟩ => ⟨S650000x128, .f32⟩
  | .hbm, ⟨98, _⟩ => ⟨S650000x128, .f32⟩
  | .hbm, ⟨99, _⟩ => ⟨S_, .f32⟩
  | .hbm, ⟨100, _⟩ => ⟨S50000x128, .f32⟩
  | .hbm, ⟨101, _⟩ => ⟨S650000x1, .i32⟩
  | .hbm, ⟨102, _⟩ => ⟨S50000x128, .f32⟩
  | .hbm, ⟨103, _⟩ => ⟨S1x128, .f32⟩
  | .hbm, ⟨104, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S650000x1, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S650000x1, .f32⟩
  | .hbm, ⟨73, _⟩ => ⟨S_, .i32⟩
  | .hbm, ⟨74, _⟩ => ⟨S650000, .i32⟩
  | .hbm, ⟨75, _⟩ => ⟨S650000, .i1⟩
  | .hbm, ⟨76, _⟩ => ⟨S_, .i32⟩
  | .hbm, ⟨77, _⟩ => ⟨S650000, .i32⟩
  | .hbm, ⟨78, _⟩ => ⟨S650000, .i32⟩
  | .hbm, ⟨79, _⟩ => ⟨S650000, .i32⟩
  | .hbm, ⟨80, _⟩ => ⟨S650000x1, .i32⟩
  | .hbm, ⟨81, _⟩ => ⟨S650000x128, .f32⟩
  | .hbm, ⟨82, _⟩ => ⟨S650000x128, .f32⟩
  | .hbm, ⟨83, _⟩ => ⟨S650000x128, .f32⟩
  | .hbm, ⟨84, _⟩ => ⟨S_, .f32⟩
  | .hbm, ⟨85, _⟩ => ⟨S50000x128, .f32⟩
  | .hbm, ⟨86, _⟩ => ⟨S650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S650000x1, .f32⟩
  | .hbm, ⟨96, _⟩ => ⟨S_, .i32⟩
  | .hbm, ⟨97, _⟩ => ⟨S650000, .i32⟩
  | .hbm, ⟨98, _⟩ => ⟨S650000, .i1⟩
  | .hbm, ⟨99, _⟩ => ⟨S_, .i32⟩
  | .hbm, ⟨100, _⟩ => ⟨S650000, .i32⟩
  | .hbm, ⟨101, _⟩ => ⟨S650000, .i32⟩
  | .hbm, ⟨102, _⟩ => ⟨S650000, .i32⟩
  | .hbm, ⟨103, _⟩ => ⟨S650000x1, .i32⟩
  | .hbm, ⟨104, _⟩ => ⟨S650000x128, .f32⟩
  | .hbm, ⟨105, _⟩ => ⟨S650000x128, .f32⟩
  | .hbm, ⟨106, _⟩ => ⟨S650000x128, .f32⟩
  | .hbm, ⟨107, _⟩ => ⟨S_, .f32⟩
  | .hbm, ⟨108, _⟩ => ⟨S50000x128, .f32⟩
  | .hbm, ⟨109, _⟩ => ⟨S650000x1, .i32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.Spec.lean ====
/-
  What one graph-convolution layer's two dense stages compute, index by index on the extended reals, over literal
  shapes: the product of a tall matrix by a square one (each entry the sum over the shared coordinate of the products
  of entries), the sum of a matrix and a row repeated down its rows, and that sum cut off below at zero. The tiled
  stages of the program and the whole-array operations of the reference are both shown to be these functions.
-/
import Idealize.ShloMosaic.Lib.ValueIdx
import Idealize.ShloMosaic.PureOps.Ideal.Laws

noncomputable section

open scoped BigOperators

namespace Cert.Spec

open Idealize.ShloMosaic Idealize.ShloMosaic.ValueIdx

/-- Rows by columns: entry (r, q) is the sum over `k` of `x (r, k) · w (k, q)`. -/
def rowsByCols {M K N : Nat} (x : FVec Ideal ⟨2, ![M, K]⟩ .f32) (w : FVec Ideal ⟨2, ![K, N]⟩ .f32) :
    FVec Ideal ⟨2, ![M, N]⟩ .f32 :=
  fun i => ∑ k : Fin K, x (ix2 ⟨(i 0).val, idx2_lt0 i⟩ k) * w (ix2 k ⟨(i 1).val, idx2_lt1 i⟩)

theorem rowsByCols_ix2 {M K N : Nat} (x : FVec Ideal ⟨2, ![M, K]⟩ .f32) (w : FVec Ideal ⟨2, ![K, N]⟩ .f32)
    (r : Fin M) (q : Fin N) : rowsByCols x w (ix2 r q) = ∑ k : Fin K, x (ix2 r k) * w (ix2 k q) := rfl

/-- A vector laid out as the one row of a one-row matrix. -/
def rowOf {N : Nat} (b : FVec Ideal ⟨1, ![N]⟩ .f32) : FVec Ideal ⟨2, ![1, N]⟩ .f32 :=
  fun y => b (ix1 ⟨(y 1).val, idx2_lt1 y⟩)

theorem rowOf_ix2 {N : Nat} (b : FVec Ideal ⟨1, ![N]⟩ .f32) (z : Fin 1) (q : Fin N) : rowOf b (ix2 z q) = b (ix1 q) := rfl

/-- A row added to every row of a matrix: entry (r, q) is `a (r, q) + b (0, q)`. -/
def addRow {M N : Nat} (a : FVec Ideal ⟨2, ![M, N]⟩ .f32) (b : FVec Ideal ⟨2, ![1, N]⟩ .f32) :
    FVec Ideal ⟨2, ![M, N]⟩ .f32 :=
  fun i => a i + b (ix2 0 ⟨(i 1).val, idx2_lt1 i⟩)

theorem addRow_ix2 {M N : Nat} (a : FVec Ideal ⟨2, ![M, N]⟩ .f32) (b : FVec Ideal ⟨2, ![1, N]⟩ .f32)
    (r : Fin M) (q : Fin N) : addRow a b (ix2 r q) = a (ix2 r q) + b (ix2 0 q) := rfl

/-- The same sum cut off below at the float zero pattern's value: entry (r, q) is `max (a (r, q) + b (0, q)) 0`. -/
def addRowCut {M N : Nat} (a : FVec Ideal ⟨2, ![M, N]⟩ .f32) (b : FVec Ideal ⟨2, ![1, N]⟩ .f32) :
    FVec Ideal ⟨2, ![M, N]⟩ .f32 :=
  fun i => max (a i + b (ix2 0 ⟨(i 1).val, idx2_lt1 i⟩)) (Ideal.ofBits .f32 0x00000000#32)

theorem addRowCut_ix2 {M N : Nat} (a : FVec Ideal ⟨2, ![M, N]⟩ .f32) (b : FVec Ideal ⟨2, ![1, N]⟩ .f32)
    (r : Fin M) (q : Fin N) :
    addRowCut a b (ix2 r q) = max (a (ix2 r q) + b (ix2 0 q)) (Ideal.ofBits .f32 0x00000000#32) := rfl

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibHostDot.lean ====
/-
  The host's matrix product (`stablehlo.dot_general`) with ONE contracted axis and no batch axis, read at an entry at
  the ideal values, for any dimension numbers record whose axis lists are the stated ones (a printed record satisfies
  each hypothesis by `rfl`): an `M × K` left operand contracted on its last axis against a `K × N` right operand
  contracted on its first. The product at entry (a, b) is the sum over the contracted coordinate `c` of the left
  operand at (a, c) times the right operand at (c, b): no accumulator, no schedule and no rounding is left in it. A
  kernel's matrix product into the zero accumulator is the same sum, so a product computed block of rows by block of
  rows and the host's whole product meet at this form.
-/
import Idealize.ShloMosaic.Lib.ValueIdx
import Idealize.ShloMosaic.PureOps.Ideal.Laws
import proofs.«117493_j75342316306432_1_alg».proof.Proof.LibDot

noncomputable section

open scoped BigOperators

namespace Cert.LibHostDot

open Idealize.ShloMosaic Idealize.ShloMosaic.ValueIdx

/-- Rows by columns on the host: an `M × K` by a `K × N` operand, the left contracted on its last axis and the right
    on its first. -/
theorem dotGeneral_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral d prec .single A B (ix2 a b) = _
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibHostDot

end
-- ==== Proof.RefSide.lean ====
/-
  The reference's result, read as the composition it is. Its one long term is three graph-convolution layers over the
  same edge data: each layer multiplies the node features by a weight matrix, gathers the product's rows at the edges'
  source nodes, scales each gathered row by the edge's normalisation weight, adds the scaled rows up at the edges' target
  nodes, and adds a bias row (the first two layers then cut the result off below at zero). The edge data — both index
  lists with the self loops appended, the degree count, its inverse square root where the degree is positive, the
  weight of an edge as the product of its two ends' factors — depend on the edge array alone and are named once here.
  At the ideal values the matrix product is the plain sum over the shared coordinate, and the bias stages are the
  pointwise functions of Spec.lean.
-/
import proofs.«117493_j75342316306432_1_alg».proof.Proof.RefRun
import Idealize.ShloMosaic.Lib.Pipeline.Value
import Idealize.ShloMosaic.Lib.ValueIdx
import Idealize.ShloMosaic.Lib.ValueLayout
import proofs.«117493_j75342316306432_1_alg».proof.Proof.Spec
import proofs.«117493_j75342316306432_1_alg».proof.Proof.LibHostDot

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

section Pieces

variable {F : FTy → Type} [FloatOps F]

/-- The edges' source nodes followed by every node once (the self loops), as read off the edge array's row 0. -/
def srcRaw (e : (⟨S2x600000, .i32⟩ : BufTy).Contents (Elt F)) : (⟨S650000, .i32⟩ : BufTy).Contents (Elt F) :=
  concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0

/-- The edges' target nodes followed by every node once, off the edge array's row 1. -/
def dstRaw (e : (⟨S2x600000, .i32⟩ : BufTy).Contents (Elt F)) : (⟨S650000, .i32⟩ : BufTy).Contents (Elt F) :=
  concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0

/-- An index list as a gather takes it: a negative index moved up by the number of nodes, then a unit axis added. -/
def wrapped (i : (⟨S650000, .i32⟩ : BufTy).Contents (Elt F)) : (⟨S650000x1, .i32⟩ : BufTy).Contents (Elt F) :=
  broadcastInDim S650000x1 ![0] bcast_S650000_S650000x1_0 (select (cmpi .slt i (broadcastInDim S650000 ![] bcast_S_S650000 (constantI S_ 32 0#32))) (addi i (broadcastInDim S650000 ![] bcast_S_S650000 (constantI S_ 32 50000#32))) i)

/-- The target list as a scatter takes it: the raw indices with a unit axis added. -/
def dstScatter (e : (⟨S2x600000, .i32⟩ : BufTy).Contents (Elt F)) : (⟨S650000x1, .i32⟩ : BufTy).Contents (Elt F) :=
  broadcastInDim S650000x1 ![0] bcast_S650000_S650000x1_0 (dstRaw e)

/-- Each node's degree: a one added at every edge's target. -/
def degree (e : (⟨S2x600000, .i32⟩ : BufTy).Contents (Elt F)) : (⟨S50000, .f32⟩ : BufTy).Contents (Elt F) :=
  Host.scatterAdd scatter_S50000_S650000x1_S650000_n_0_0_1 (broadcastInDim S50000 ![] bcast_S_S50000 (constant S_ .f32 0x00000000#32)) (dstScatter e) (broadcastInDim S650000 ![] bcast_S_S650000 (constant S_ .f32 0x3F800000#32))

/-- The inverse square root of the degree where it is positive, zero elsewhere. -/
def invSqrtDegree (e : (⟨S2x600000, .i32⟩ : BufTy).Contents (Elt F)) : (⟨S50000, .f32⟩ : BufTy).Contents (Elt F) :=
  select (cmpf (F := F) .ogt (degree e) (broadcastInDim S50000 ![] bcast_S_S50000 (constant S_ .f32 0x00000000#32))) (Host.rsqrt (degree e)) (broadcastInDim S50000 ![] bcast_S_S50000 (id (constant S_ .f32 0x00000000#32)))

/-- An edge's weight: the product of its two ends' factors. -/
def edgeWeight (e : (⟨S2x600000, .i32⟩ : BufTy).Contents (Elt F)) : (⟨S650000, .f32⟩ : BufTy).Contents (Elt F) :=
  mulf (Host.gather gather_S50000_S650000x1_S650000_n_0_n_n_0_1_1 (invSqrtDegree e) (wrapped (srcRaw e))) (Host.gather gather_S50000_S650000x1_S650000_n_0_n_n_0_1_1 (invSqrtDegree e) (wrapped (dstRaw e)))

/-- One layer's aggregation: the rows of `xw` at the edges' sources, each scaled by its edge's weight, added up at the
    edges' targets. -/
def aggregate (e : (⟨S2x600000, .i32⟩ : BufTy).Contents (Elt F)) (xw : (⟨S50000x128, .f32⟩ : BufTy).Contents (Elt F)) :
    (⟨S50000x128, .f32⟩ : BufTy).Contents (Elt F) :=
  Host.scatterAdd scatter_S50000x128_S650000x1_S650000x128_1_0_0_1 (broadcastInDim S50000x128 ![] bcast_S_S50000x128 (constant S_ .f32 0x00000000#32)) (dstScatter e) (mulf (broadcastInDim S650000x128 ![0, 1] bcast_S650000x1_S650000x128_0_1 (broadcastInDim S650000x1 ![0] bcast_S650000_S650000x1_0 (edgeWeight e))) (Host.gather gather_S50000x128_S650000x1_S650000x128_1_0_n_n_0_1_1128 xw (wrapped (srcRaw e))))

/-- The features times a weight matrix. -/
def times (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- A bias row added to every row. -/
def plusBias (a : (⟨S50000x128, .f32⟩ : BufTy).Contents (Elt F)) (b : (⟨S128, .f32⟩ : BufTy).Contents (Elt F)) :
    (⟨S50000x128, .f32⟩ : BufTy).Contents (Elt F) :=
  addf a (broadcastInDim S50000x128 ![0, 1] bcast_S1x128_S50000x128_0_1 (broadcastInDim S1x128 ![1] bcast_S128_S1x128_1 b))

/-- Cut off below at zero. -/
def cutBelow (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

/-- The three layers over one edge array. -/
def threeLayers (x : (⟨S50000x128, .f32⟩ : BufTy).Contents (Elt F)) (e : (⟨S2x600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) :
    (⟨S50000x128, .f32⟩ : BufTy).Contents (Elt F) :=
  plusBias (aggregate e (times (cutBelow (plusBias (aggregate e (times (cutBelow (plusBias (aggregate e (times x w1)) b1)) w2)) b2)) w3)) b3

set_option maxRecDepth 16384 in
/-- The reference run's result term is the three layers of its arguments: the same operations, named. -/
theorem res_eq (m : (ℓ : Loc nD τ sig) → Buf (Elt F) ℓ) (c : Dev nD) :
    Cert.ReferenceIdeal.ValueP.res_main_v82 (F := F) m c
      = threeLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v82
  rfl

end Pieces

/-! ## At the ideal values -/

/-- The host's product is the plain sum over the shared coordinate. -/
theorem times_eq (x : (⟨S50000x128, .f32⟩ : BufTy).Contents (Elt Ideal)) (w : (⟨S128x128, .f32⟩ : BufTy).Contents (Elt Ideal)) :
    times (F := Ideal) x w = Cert.Spec.rowsByCols x w := by
  funext i
  obtain ⟨r, q, rfl⟩ : ∃ (r : Fin 50000) (q : Fin 128), i = ix2 r q := ⟨i 0, i 1, eq_ix2 i⟩
  exact Cert.LibHostDot.dotGeneral_10_apply dot_S50000x128_S128x128_S50000x128_1_0_0_1_n_n rfl rfl rfl rfl rfl rfl none x w r q

/-- The bias row, broadcast twice, is the bias read at the column. -/
theorem plusBias_eq (a : (⟨S50000x128, .f32⟩ : BufTy).Contents (Elt Ideal)) (b : (⟨S128, .f32⟩ : BufTy).Contents (Elt Ideal)) :
    plusBias (F := Ideal) a b = Cert.Spec.addRow a (Cert.Spec.rowOf b) := by
  funext i
  obtain ⟨r, q, rfl⟩ : ∃ (r : Fin 50000) (q : Fin 128), i = ix2 r q := ⟨i 0, i 1, eq_ix2 i⟩
  show a (ix2 r q) + broadcastInDim S50000x128 ![0, 1] bcast_S1x128_S50000x128_0_1 (broadcastInDim S1x128 ![1] bcast_S128_S1x128_1 b) (ix2 r q) = a (ix2 r q) + b (ix1 q)
  rw [broadcastInDim_apply _ _ _ (ix2 r q) (ix2 (0 : Fin 1) q) (fun ax => by
        match ax with
        | ⟨0, _⟩ => rfl
        | ⟨1, _⟩ => rfl),
    broadcastInDim_apply _ _ _ (ix2 (0 : Fin 1) q) (ix1 q) (fun ax => by
        match ax with
        | ⟨0, _⟩ => rfl)]

/-- Adding the bias and cutting off below at zero. -/
theorem cutBelow_plusBias_eq (a : (⟨S50000x128, .f32⟩ : BufTy).Contents (Elt Ideal)) (b : (⟨S128, .f32⟩ : BufTy).Contents (Elt Ideal)) :
    cutBelow (F := Ideal) (plusBias a b) = Cert.Spec.addRowCut a (Cert.Spec.rowOf b) := by
  rw [plusBias_eq]
  funext i
  obtain ⟨r, q, rfl⟩ : ∃ (r : Fin 50000) (q : Fin 128), i = ix2 r q := ⟨i 0, i 1, eq_ix2 i⟩
  show max (Cert.Spec.addRow a (Cert.Spec.rowOf b) (ix2 r q)) (broadcastInDim S50000x128 ![] bcast_S_S50000x128 (constant (F := Ideal) S_ .f32 0x00000000#32) (ix2 r q)) = _
  rw [broadcastInDim_apply _ _ _ (ix2 r q) ix0 (fun ax => ax.elim0)]
  rfl

/-- The three layers at the ideal values: each product the plain sum, each bias stage the pointwise function, the
    aggregation between them left as it is. -/
theorem threeLayers_eq (x : (⟨S50000x128, .f32⟩ : BufTy).Contents (Elt Ideal)) (e : (⟨S2x600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x128, .f32⟩ : BufTy).Contents (Elt Ideal)) (b3 : (⟨S128, .f32⟩ : BufTy).Contents (Elt Ideal)) :
    threeLayers (F := Ideal) x e w1 b1 w2 b2 w3 b3
      = Cert.Spec.addRow (aggregate e (Cert.Spec.rowsByCols
          (Cert.Spec.addRowCut (aggregate e (Cert.Spec.rowsByCols
            (Cert.Spec.addRowCut (aggregate e (Cert.Spec.rowsByCols x w1)) (Cert.Spec.rowOf b1)) w2)) (Cert.Spec.rowOf b2)) w3))
          (Cert.Spec.rowOf b3) := by
  unfold threeLayers
  simp only [cutBelow_plusBias_eq, times_eq]
  rw [plusBias_eq]

end Cert.ReferenceIdeal.RefValue

end
-- ==== Proof.Region0.lean ====
/-
  One dense stage of the program: the node features times a weight matrix, computed ten blocks of 5000 rows at a
  time. Each grid point loads its block of rows and the whole 128 × 128 weight matrix, multiplies them into the zero
  accumulator (the operands' change of float format is the identity at the ideal values) and writes the product back
  as the same block of rows of the output. A row of a product depends on that row of the left operand alone, so the
  ten blocks written back are the ten blocks of the whole product, and they cover the output array.
-/
import proofs.«117493_j75342316306432_1_alg».proof.Proof.Gen.KernelIdeal.Frame
import Idealize.ShloMosaic.Lib.Pipeline.Value
import Idealize.ShloMosaic.Lib.ValueIdx
import Idealize.ShloMosaic.Lib.ValueLayout
import proofs.«117493_j75342316306432_1_alg».proof.Proof.Spec
import proofs.«117493_j75342316306432_1_alg».proof.Proof.LibDot

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature array and the weight matrix as the region finds them. -/
abbrev featArr (c : Dev nD) : Vec Ideal S50000x128 .f32 := V c main_arg0
abbrev weightArr (c : Dev nD) : Vec Ideal S128x128 .f32 := V c main_arg2

theorem hz : (![0, 0] : Fin 2 → Nat) = fun _ => 0 := funext fun a => by fin_cases a <;> rfl

/-- The body's stored value at an entry: the loaded block of rows times the weight matrix, the change of float format
    on the way being the identity at the ideal values and the accumulator the zero constant. -/
theorem pay_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  try simp only [shapeCast_self]
  exact Cert.LibDot.matmul_10_zero_apply dot_S5000x128_S128x128_S5000x128_1_0_0_1_n_n rfl rfl rfl rfl rfl rfl none
    (truncf .bf16 x bitsLt_bf16_f32) (truncf .bf16 w bitsLt_bf16_f32) p q

theorem pay_at (x : Vec Ideal S5000x128 .f32) (w : Vec Ideal S128x128 .f32) (y : S5000x128.Idx) :
    k0_pay1 x w y = ∑ k : Fin 128, x (ix2 ⟨(y 0).val, idx2_lt0 y⟩ k) * w (ix2 k ⟨(y 1).val, idx2_lt1 y⟩) := by
  obtain ⟨p, q, rfl⟩ : ∃ (p : Fin 5000) (q : Fin 128), y = ix2 p q := ⟨y 0, y 1, eq_ix2 y⟩
  exact pay_apply x w p q

/-- The printed index maps over the grid: point `t` takes block `t` of the rows and the whole weight matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product: a row of the product depends on that row of the
    features alone, so the product of a block of rows is that block of the product. -/
theorem flushed_eq (c : Dev nD) (t : Fin cfg0.N) :
    (dat0 V c).flushed 2 t
      = ((cfg0.win 2).blk t).view.read (Elt Ideal) (Spec.rowsByCols (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = Spec.rowsByCols (V c main_arg0) (V c main_arg2) (((cfg0.win 2).blk t).view.emb j)
  refine (pay_at (iblk0 V c 0 t) (iblk0 V c 1 t) j).trans ?_
  have hj0 : (j 0).val < 5000 := (j 0).isLt
  have hj1 : (j 1).val < 128 := (j 1).isLt
  refine Finset.sum_congr rfl fun k _ => ?_
  show featArr V c (((cfg0.win 0).blk t).view.emb (ix2 ⟨(j 0).val, hj0⟩ k)) * weightArr V c (((cfg0.win 1).blk t).view.emb (ix2 k ⟨(j 1).val, hj1⟩))
     = featArr V c (ix2 ⟨((((cfg0.win 2).blk t).view.emb j) 0).val, idx2_lt0 _⟩ k) * weightArr V c (ix2 k ⟨((((cfg0.win 2).blk t).view.emb j) 1).val, idx2_lt1 _⟩)
  have hk : k.val < 128 := k.isLt
  have h0 : ((cfg0.win 0).blk t).view.emb (ix2 ⟨(j 0).val, hj0⟩ k)
      = ix2 ⟨((((cfg0.win 2).blk t).view.emb j) 0).val, idx2_lt0 _⟩ k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k ⟨(j 1).val, hj1⟩)
      = ix2 k ⟨((((cfg0.win 2).blk t).view.emb j) 1).val, idx2_lt1 _⟩ := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks of rows cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after its ten points: the features times the weight matrix, whole. -/
theorem final (c : Dev nD) :
    (dat0 V c).arrAt 2 cfg0.N = Spec.rowsByCols (V c main_arg0) (V c main_arg2) :=
  (dat0 V c).arrAt_eq_of_cover 2 _ (fun t _ => flushed_eq V c t) cover

end Cert.KernelIdeal.Region0

end
-- ==== Proof.Region1.lean ====
/-
  One bias stage of the program: a bias row added to every row of the aggregated features and the sum cut off below
  at zero, computed ten blocks of 5000 rows at a time. Each grid point loads its block of rows and the one bias row,
  adds the row to every row of the block, takes the larger of the sum and zero entry by entry, and writes the block
  back. The operation is entry by entry, so the ten blocks written back are the ten blocks of the whole-array
  function, and they cover the output array.
-/
import proofs.«117493_j75342316306432_1_alg».proof.Proof.Gen.KernelIdeal.Frame
import Idealize.ShloMosaic.Lib.Pipeline.Value
import Idealize.ShloMosaic.Lib.ValueIdx
import Idealize.ShloMosaic.Lib.ValueLayout
import proofs.«117493_j75342316306432_1_alg».proof.Proof.Spec
import proofs.«117493_j75342316306432_1_alg».proof.Proof.LibDot

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The array the region adds the bias to, and the one-row array that holds the bias, as the region finds them. -/
abbrev aggArr (c : Dev nD) : Vec Ideal S50000x128 .f32 := V c main_v43
abbrev biasArr (c : Dev nD) : Vec Ideal S1x128 .f32 := V c main_v44

theorem hz : (![0, 0] : Fin 2 → Nat) = fun _ => 0 := funext fun a => by fin_cases a <;> rfl

/-- The body's stored value at an entry: the loaded block's entry plus the bias row's entry of that column, cut off
    below at zero. -/
theorem pay_apply (x : Vec Ideal S5000x128 .f32) (b : Vec Ideal S1x128 .f32) (p : Fin 5000) (q : Fin 128) :
    k1_pay1 x b (ix2 p q) = max (x (ix2 p q) + b (ix2 (0 : Fin 1) q)) (Ideal.ofBits .f32 0x00000000#32) := by
  unfold k1_pay1
  simp only [shapeCast_self]
  show max (x (ix2 p q) + broadcastTo S5000x128 b broadcasts_S1x128_S5000x128 (ix2 p q)) _ = _
  rw [broadcastTo_1b_ab_apply]
  rfl

theorem pay_at (x : Vec Ideal S5000x128 .f32) (b : Vec Ideal S1x128 .f32) (y : S5000x128.Idx) :
    k1_pay1 x b y = max (x y + b (ix2 (0 : Fin 1) ⟨(y 1).val, idx2_lt1 y⟩)) (Ideal.ofBits .f32 0x00000000#32) := by
  obtain ⟨p, q, rfl⟩ : ∃ (p : Fin 5000) (q : Fin 128), y = ix2 p q := ⟨y 0, y 1, eq_ix2 y⟩
  exact pay_apply x b p q

/-- The printed index maps over the grid: point `t` takes block `t` of the rows, the one block of columns, and the one
    block of the bias row. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole-array function of the arrays the region finds. -/
theorem flushed_eq (c : Dev nD) (t : Fin cfg1.N) :
    (dat1 V c).flushed 2 t
      = ((cfg1.win 2).blk t).view.read (Elt Ideal) (Spec.addRowCut (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j = Spec.addRowCut (V c main_v43) (V c main_v44) (((cfg1.win 2).blk t).view.emb j)
  refine (pay_at (iblk1 V c 0 t) (iblk1 V c 1 t) j).trans ?_
  have hj0 : (j 0).val < 5000 := (j 0).isLt
  have hj1 : (j 1).val < 128 := (j 1).isLt
  show max (aggArr V c (((cfg1.win 0).blk t).view.emb j) + biasArr V c (((cfg1.win 1).blk t).view.emb (ix2 (0 : Fin 1) ⟨(j 1).val, hj1⟩))) _
     = max (aggArr V c (((cfg1.win 2).blk t).view.emb j) + biasArr V c (ix2 (0 : Fin 1) ⟨((((cfg1.win 2).blk t).view.emb j) 1).val, idx2_lt1 _⟩)) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) ⟨(j 1).val, hj1⟩)
      = ix2 (0 : Fin 1) ⟨((((cfg1.win 2).blk t).view.emb j) 1).val, idx2_lt1 _⟩ := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten blocks of rows cover the array. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after its ten points: the entering array plus the bias row, cut off below at zero. -/
theorem final (c : Dev nD) :
    (dat1 V c).arrAt 2 cfg1.N = Spec.addRowCut (V c main_v43) (V c main_v44) :=
  (dat1 V c).arrAt_eq_of_cover 2 _ (fun t _ => flushed_eq V c t) cover

end Cert.KernelIdeal.Region1

end
-- ==== Proof.Region2.lean ====
/-
  One dense stage of the program: the node features times a weight matrix, computed ten blocks of 5000 rows at a
  time. Each grid point loads its block of rows and the whole 128 × 128 weight matrix, multiplies them into the zero
  accumulator (the operands' change of float format is the identity at the ideal values) and writes the product back
  as the same block of rows of the output. A row of a product depends on that row of the left operand alone, so the
  ten blocks written back are the ten blocks of the whole product, and they cover the output array.
-/
import proofs.«117493_j75342316306432_1_alg».proof.Proof.Gen.KernelIdeal.Frame
import Idealize.ShloMosaic.Lib.Pipeline.Value
import Idealize.ShloMosaic.Lib.ValueIdx
import Idealize.ShloMosaic.Lib.ValueLayout
import proofs.«117493_j75342316306432_1_alg».proof.Proof.Spec
import proofs.«117493_j75342316306432_1_alg».proof.Proof.LibDot

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature array and the weight matrix as the region finds them. -/
abbrev featArr (c : Dev nD) : Vec Ideal S50000x128 .f32 := V c main_v45
abbrev weightArr (c : Dev nD) : Vec Ideal S128x128 .f32 := V c main_arg4

theorem hz : (![0, 0] : Fin 2 → Nat) = fun _ => 0 := funext fun a => by fin_cases a <;> rfl

/-- The body's stored value at an entry: the loaded block of rows times the weight matrix, the change of float format
    on the way being the identity at the ideal values and the accumulator the zero constant. -/
theorem pay_apply (x : Vec Ideal S5000x128 .f32) (w : Vec Ideal S128x128 .f32) (p : Fin 5000) (q : Fin 128) :
    k2_pay1 x w (ix2 p q) = ∑ k : Fin 128, x (ix2 p k) * w (ix2 k q) := by
  unfold k2_pay1
  try simp only [shapeCast_self]
  exact Cert.LibDot.matmul_10_zero_apply dot_S5000x128_S128x128_S5000x128_1_0_0_1_n_n rfl rfl rfl rfl rfl rfl none
    (truncf .bf16 x bitsLt_bf16_f32) (truncf .bf16 w bitsLt_bf16_f32) p q

theorem pay_at (x : Vec Ideal S5000x128 .f32) (w : Vec Ideal S128x128 .f32) (y : S5000x128.Idx) :
    k2_pay1 x w y = ∑ k : Fin 128, x (ix2 ⟨(y 0).val, idx2_lt0 y⟩ k) * w (ix2 k ⟨(y 1).val, idx2_lt1 y⟩) := by
  obtain ⟨p, q, rfl⟩ : ∃ (p : Fin 5000) (q : Fin 128), y = ix2 p q := ⟨y 0, y 1, eq_ix2 y⟩
  exact pay_apply x w p q

/-- The printed index maps over the grid: point `t` takes block `t` of the rows and the whole weight matrix. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product: a row of the product depends on that row of the
    features alone, so the product of a block of rows is that block of the product. -/
theorem flushed_eq (c : Dev nD) (t : Fin cfg2.N) :
    (dat2 V c).flushed 2 t
      = ((cfg2.win 2).blk t).view.read (Elt Ideal) (Spec.rowsByCols (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j = Spec.rowsByCols (V c main_v45) (V c main_arg4) (((cfg2.win 2).blk t).view.emb j)
  refine (pay_at (iblk2 V c 0 t) (iblk2 V c 1 t) j).trans ?_
  have hj0 : (j 0).val < 5000 := (j 0).isLt
  have hj1 : (j 1).val < 128 := (j 1).isLt
  refine Finset.sum_congr rfl fun k _ => ?_
  show featArr V c (((cfg2.win 0).blk t).view.emb (ix2 ⟨(j 0).val, hj0⟩ k)) * weightArr V c (((cfg2.win 1).blk t).view.emb (ix2 k ⟨(j 1).val, hj1⟩))
     = featArr V c (ix2 ⟨((((cfg2.win 2).blk t).view.emb j) 0).val, idx2_lt0 _⟩ k) * weightArr V c (ix2 k ⟨((((cfg2.win 2).blk t).view.emb j) 1).val, idx2_lt1 _⟩)
  have hk : k.val < 128 := k.isLt
  have h0 : ((cfg2.win 0).blk t).view.emb (ix2 ⟨(j 0).val, hj0⟩ k)
      = ix2 ⟨((((cfg2.win 2).blk t).view.emb j) 0).val, idx2_lt0 _⟩ k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k ⟨(j 1).val, hj1⟩)
      = ix2 k ⟨((((cfg2.win 2).blk t).view.emb j) 1).val, idx2_lt1 _⟩ := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The ten blocks of rows cover the array. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region's output array after its ten points: the features times the weight matrix, whole. -/
theorem final (c : Dev nD) :
    (dat2 V c).arrAt 2 cfg2.N = Spec.rowsByCols (V c main_v45) (V c main_arg4) :=
  (dat2 V c).arrAt_eq_of_cover 2 _ (fun t _ => flushed_eq V c t) cover

end Cert.KernelIdeal.Region2

end
-- ==== Proof.Region3.lean ====
/-
  One bias stage of the program: a bias row added to every row of the aggregated features and the sum cut off below
  at zero, computed ten blocks of 5000 rows at a time. Each grid point loads its block of rows and the one bias row,
  adds the row to every row of the block, takes the larger of the sum and zero entry by entry, and writes the block
  back. The operation is entry by entry, so the ten blocks written back are the ten blocks of the whole-array
  function, and they cover the output array.
-/
import proofs.«117493_j75342316306432_1_alg».proof.Proof.Gen.KernelIdeal.Frame
import Idealize.ShloMosaic.Lib.Pipeline.Value
import Idealize.ShloMosaic.Lib.ValueIdx
import Idealize.ShloMosaic.Lib.ValueLayout
import proofs.«117493_j75342316306432_1_alg».proof.Proof.Spec
import proofs.«117493_j75342316306432_1_alg».proof.Proof.LibDot

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The array the region adds the bias to, and the one-row array that holds the bias, as the region finds them. -/
abbrev aggArr (c : Dev nD) : Vec Ideal S50000x128 .f32 := V c main_v59
abbrev biasArr (c : Dev nD) : Vec Ideal S1x128 .f32 := V c main_v60

theorem hz : (![0, 0] : Fin 2 → Nat) = fun _ => 0 := funext fun a => by fin_cases a <;> rfl

/-- The body's stored value at an entry: the loaded block's entry plus the bias row's entry of that column, cut off
    below at zero. -/
theorem pay_apply (x : Vec Ideal S5000x128 .f32) (b : Vec Ideal S1x128 .f32) (p : Fin 5000) (q : Fin 128) :
    k3_pay1 x b (ix2 p q) = max (x (ix2 p q) + b (ix2 (0 : Fin 1) q)) (Ideal.ofBits .f32 0x00000000#32) := by
  unfold k3_pay1
  simp only [shapeCast_self]
  show max (x (ix2 p q) + broadcastTo S5000x128 b broadcasts_S1x128_S5000x128 (ix2 p q)) _ = _
  rw [broadcastTo_1b_ab_apply]
  rfl

theorem pay_at (x : Vec Ideal S5000x128 .f32) (b : Vec Ideal S1x128 .f32) (y : S5000x128.Idx) :
    k3_pay1 x b y = max (x y + b (ix2 (0 : Fin 1) ⟨(y 1).val, idx2_lt1 y⟩)) (Ideal.ofBits .f32 0x00000000#32) := by
  obtain ⟨p, q, rfl⟩ : ∃ (p : Fin 5000) (q : Fin 128), y = ix2 p q := ⟨y 0, y 1, eq_ix2 y⟩
  exact pay_apply x b p q

/-- The printed index maps over the grid: point `t` takes block `t` of the rows, the one block of columns, and the one
    block of the bias row. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block of rows is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole-array function of the arrays the region finds. -/
theorem flushed_eq (c : Dev nD) (t : Fin cfg3.N) :
    (dat3 V c).flushed 2 t
      = ((cfg3.win 2).blk t).view.read (Elt Ideal) (Spec.addRowCut (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  show k3_pay1 (iblk3 V c 0 t) (iblk3 V c 1 t) j = Spec.addRowCut (V c main_v59) (V c main_v60) (((cfg3.win 2).blk t).view.emb j)
  refine (pay_at (iblk3 V c 0 t) (iblk3 V c 1 t) j).trans ?_
  have hj0 : (j 0).val < 5000 := (j 0).isLt
  have hj1 : (j 1).val < 128 := (j 1).isLt
  show max (aggArr V c (((cfg3.win 0).blk t).view.emb j) + biasArr V c (((cfg3.win 1).blk t).view.emb (ix2 (0 : Fin 1) ⟨(j 1).val, hj1⟩))) _
     = max (aggArr V c (((cfg3.win 2).blk t).view.emb j) + biasArr V c (ix2 (0 : Fin 1) ⟨((((cfg3.win 2).blk t).view.emb j) 1).val, idx2_lt1 _⟩)) _
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) ⟨(j 1).val, hj1⟩)
      = ix2 (0 : Fin 1) ⟨((((cfg3.win 2).blk t).view.emb j) 1).val, idx2_lt1 _⟩ := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- The ten blocks of rows cover the array. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The region's output array after its ten points: the entering array plus the bias row, cut off below at zero. -/
theorem final (c : Dev nD) :
    (dat3 V c).arrAt 2 cfg3.N = Spec.addRowCut (V c main_v59) (V c main_v60) :=
  (dat3 V c).arrAt_eq_of_cover 2 _ (fun t _ => flushed_eq V c t) cover

end Cert.KernelIdeal.Region3

end
-- ==== Proof.Region4.lean ====
/-
  One dense stage of the program: the node features times a weight matrix, computed ten blocks of 5000 rows at a
  time. Each grid point loads its block of rows and the whole 128 × 128 weight matrix, multiplies them into the zero
  accumulator (the operands' change of float format is the identity at the ideal values) and writes the product back
  as the same block of rows of the output. A row of a product depends on that row of the left operand alone, so the
  ten blocks written back are the ten blocks of the whole product, and they cover the output array.
-/
import proofs.«117493_j75342316306432_1_alg».proof.Proof.Gen.KernelIdeal.Frame
import Idealize.ShloMosaic.Lib.Pipeline.Value
import Idealize.ShloMosaic.Lib.ValueIdx
import Idealize.ShloMosaic.Lib.ValueLayout
import proofs.«117493_j75342316306432_1_alg».proof.Proof.Spec
import proofs.«117493_j75342316306432_1_alg».proof.Proof.LibDot

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature array and the weight matrix as the region finds them. -/
abbrev featArr (c : Dev nD) : Vec Ideal S50000x128 .f32 := V c main_v61
abbrev weightArr (c : Dev nD) : Vec Ideal S128x128 .f32 := V c main_arg6

theorem hz : (![0, 0] : Fin 2 → Nat) = fun _ => 0 := funext fun a => by fin_cases a <;> rfl

/-- The body's stored value at an entry: the loaded block of rows times the weight matrix, the change of float format
    on the way being the identity at the ideal values and the accumulator the zero constant. -/
theorem pay_apply (x : Vec Ideal S5000x128 .f32) (w : Vec Ideal S128x128 .f32) (p : Fin 5000) (q : Fin 128) :
    k4_pay1 x w (ix2 p q) = ∑ k : Fin 128, x (ix2 p k) * w (ix2 k q) := by
  unfold k4_pay1
  try simp only [shapeCast_self]
  exact Cert.LibDot.matmul_10_zero_apply dot_S5000x128_S128x128_S5000x128_1_0_0_1_n_n rfl rfl rfl rfl rfl rfl none
    (truncf .bf16 x bitsLt_bf16_f32) (truncf .bf16 w bitsLt_bf16_f32) p q

theorem pay_at (x : Vec Ideal S5000x128 .f32) (w : Vec Ideal S128x128 .f32) (y : S5000x128.Idx) :
    k4_pay1 x w y = ∑ k : Fin 128, x (ix2 ⟨(y 0).val, idx2_lt0 y⟩ k) * w (ix2 k ⟨(y 1).val, idx2_lt1 y⟩) := by
  obtain ⟨p, q, rfl⟩ : ∃ (p : Fin 5000) (q : Fin 128), y = ix2 p q := ⟨y 0, y 1, eq_ix2 y⟩
  exact pay_apply x w p q

/-- The printed index maps over the grid: point `t` takes block `t` of the rows and the whole weight matrix. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every block of rows is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- What point `t` writes back is block `t` of the whole product: a row of the product depends on that row of the
    features alone, so the product of a block of rows is that block of the product. -/
theorem flushed_eq (c : Dev nD) (t : Fin cfg4.N) :
    (dat4 V c).flushed 2 t
      = ((cfg4.win 2).blk t).view.read (Elt Ideal) (Spec.rowsByCols (V c main_v61) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  show k4_pay1 (iblk4 V c 0 t) (iblk4 V c 1 t) j = Spec.rowsByCols (V c main_v61) (V c main_arg6) (((cfg4.win 2).blk t).view.emb j)
  refine (pay_at (iblk4 V c 0 t) (iblk4 V c 1 t) j).trans ?_
  have hj0 : (j 0).val < 5000 := (j 0).isLt
  have hj1 : (j 1).val < 128 := (j 1).isLt
  refine Finset.sum_congr rfl fun k _ => ?_
  show featArr V c (((cfg4.win 0).blk t).view.emb (ix2 ⟨(j 0).val, hj0⟩ k)) * weightArr V c (((cfg4.win 1).blk t).view.emb (ix2 k ⟨(j 1).val, hj1⟩))
     = featArr V c (ix2 ⟨((((cfg4.win 2).blk t).view.emb j) 0).val, idx2_lt0 _⟩ k) * weightArr V c (ix2 k ⟨((((cfg4.win 2).blk t).view.emb j) 1).val, idx2_lt1 _⟩)
  have hk : k.val < 128 := k.isLt
  have h0 : ((cfg4.win 0).blk t).view.emb (ix2 ⟨(j 0).val, hj0⟩ k)
      = ix2 ⟨((((cfg4.win 2).blk t).view.emb j) 0).val, idx2_lt0 _⟩ k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (ix2 k ⟨(j 1).val, hj1⟩)
      = ix2 k ⟨((((cfg4.win 2).blk t).view.emb j) 1).val, idx2_lt1 _⟩ := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [h0, h1]

/-- An index of the array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- The ten blocks of rows cover the array. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The region's output array after its ten points: the features times the weight matrix, whole. -/
theorem final (c : Dev nD) :
    (dat4 V c).arrAt 2 cfg4.N = Spec.rowsByCols (V c main_v61) (V c main_arg6) :=
  (dat4 V c).arrAt_eq_of_cover 2 _ (fun t _ => flushed_eq V c t) cover

end Cert.KernelIdeal.Region4

end
-- ==== Proof.Region5.lean ====
/-
  The last bias stage of the program: a bias row added to every row of the aggregated features, computed ten blocks of
  5000 rows at a time, with no cut-off after it. Each grid point loads its block of rows and the one bias row, adds
  the row to every row of the block and writes the block back; the ten blocks written back are the ten blocks of the
  whole-array sum, and they cover the output array.
-/
import proofs.«117493_j75342316306432_1_alg».proof.Proof.Gen.KernelIdeal.Frame
import Idealize.ShloMosaic.Lib.Pipeline.Value
import Idealize.ShloMosaic.Lib.ValueIdx
import Idealize.ShloMosaic.Lib.ValueLayout
import proofs.«117493_j75342316306432_1_alg».proof.Proof.Spec
import proofs.«117493_j75342316306432_1_alg».proof.Proof.LibDot

set_option maxRecDepth 16384

noncomputable section

open scoped BigOperators

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The array the region adds the bias to, and the one-row array that holds the bias, as the region finds them. -/
abbrev aggArr (c : Dev nD) : Vec Ideal S50000x128 .f32 := V c main_v75
abbrev biasArr (c : Dev nD) : Vec Ideal S1x128 .f32 := V c main_v76

theorem hz : (![0, 0] : Fin 2 → Nat) = fun _ => 0 := funext fun a => by fin_cases a <;> rfl

/-- The body's stored value at an entry: the loaded block's entry plus the bias row's entry of that column. -/
theorem pay_apply (x : Vec Ideal S5000x128 .f32) (b : Vec Ideal S1x128 .f32) (p : Fin 5000) (q : Fin 128) :
    k5_pay1 x b (ix2 p q) = x (ix2 p q) + b (ix2 (0 : Fin 1) q) := by
  unfold k5_pay1
  simp only [shapeCast_self]
  show x (ix2 p q) + broadcastTo S5000x128 b broadcasts_S1x128_S5000x128 (ix2 p q) = _
  rw [broadcastTo_1b_ab_apply]

theorem pay_at (x : Vec Ideal S5000x128 .f32) (b : Vec Ideal S1x128 .f32) (y : S5000x128.Idx) :
    k5_pay1 x b y = x y + b (ix2 (0 : Fin 1) ⟨(y 1).val, idx2_lt1 y⟩) := by
  obtain ⟨p, q, rfl⟩ : ∃ (p : Fin 5000) (q : Fin 128), y = ix2 p q := ⟨y 0, y 1, eq_ix2 y⟩
  exact pay_apply x b p q

/-- The printed index maps over the grid: point `t` takes block `t` of the rows, the one block of columns, and the one
    block of the bias row. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every block of rows is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- What point `t` writes back is block `t` of the whole-array function of the arrays the region finds. -/
theorem flushed_eq (c : Dev nD) (t : Fin cfg5.N) :
    (dat5 V c).flushed 2 t
      = ((cfg5.win 2).blk t).view.read (Elt Ideal) (Spec.addRow (V c main_v75) (V c main_v76)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext j
  show k5_pay1 (iblk5 V c 0 t) (iblk5 V c 1 t) j = Spec.addRow (V c main_v75) (V c main_v76) (((cfg5.win 2).blk t).view.emb j)
  refine (pay_at (iblk5 V c 0 t) (iblk5 V c 1 t) j).trans ?_
  have hj0 : (j 0).val < 5000 := (j 0).isLt
  have hj1 : (j 1).val < 128 := (j 1).isLt
  show aggArr V c (((cfg5.win 0).blk t).view.emb j) + biasArr V c (((cfg5.win 1).blk t).view.emb (ix2 (0 : Fin 1) ⟨(j 1).val, hj1⟩))
     = aggArr V c (((cfg5.win 2).blk t).view.emb j) + biasArr V c (ix2 (0 : Fin 1) ⟨((((cfg5.win 2).blk t).view.emb j) 1).val, idx2_lt1 _⟩)
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb (ix2 (0 : Fin 1) ⟨(j 1).val, hj1⟩)
      = ix2 (0 : Fin 1) ⟨((((cfg5.win 2).blk t).view.emb j) 1).val, idx2_lt1 _⟩ := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  rw [h0, h1]

/-- An index of the array is in point `t`'s block iff each coordinate is in the block's range on its axis. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- The ten blocks of rows cover the array. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The region's output array after its ten points: the entering array plus the bias row. -/
theorem final (c : Dev nD) :
    (dat5 V c).arrAt 2 cfg5.N = Spec.addRow (V c main_v75) (V c main_v76) :=
  (dat5 V c).arrAt_eq_of_cover 2 _ (fun t _ => flushed_eq V c t) cover

end Cert.KernelIdeal.Region5

end
-- ==== Proof.KValue.lean ====
/-
  The program's result buffer, read boundary by boundary. Before the first dense stage the host builds, from the edge
  array alone, the two index lists and the edges' weights; no later step writes them, so every later stretch of host
  operations finds them unchanged. Each dense stage leaves in its output array the whole-array function of Spec.lean of
  the arrays it finds (the Region modules); each stretch of host operations between two stages applies the reference's own
  aggregation to the product it finds and lays the next bias out as a row. Composed, the result buffer holds the three
  layers of the arguments.
-/
import proofs.«117493_j75342316306432_1_alg».proof.Proof.Gen.KernelIdeal.Frame
import proofs.«117493_j75342316306432_1_alg».proof.Proof.Region0
import proofs.«117493_j75342316306432_1_alg».proof.Proof.Region1
import proofs.«117493_j75342316306432_1_alg».proof.Proof.Region2
import proofs.«117493_j75342316306432_1_alg».proof.Proof.Region3
import proofs.«117493_j75342316306432_1_alg».proof.Proof.Region4
import proofs.«117493_j75342316306432_1_alg».proof.Proof.Region5
import proofs.«117493_j75342316306432_1_alg».proof.Proof.RefSide
import Idealize.ShloMosaic.Lib.StableHlo.Run
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Cert.ReferenceIdeal.RefValue (srcRaw dstRaw edgeWeight aggregate)

section Entry

variable {F : FTy → Type} [FloatOps F] (m : (ℓ : Loc nD τ sig) → Buf (Elt F) ℓ) (ρ : Dev nD → PrngReg)

/-- Read a buffer after the host operations before the first stage. -/
local macro "entry_read" : tactic =>
  `(tactic| (simp only [W1, W2, W3, hostOps0, hostOps0_1, hostOps0_2]
             after_results_simp))

/-! ## At the first stage's entry: what the host builds from the edge array, at any float family -/

/-- The source list. -/
theorem W3_v3 (c : Dev nD) : W3 m ρ c (Proc.devRef .tc main_v3) = srcRaw (m ((c : Thread nD τ).loc main_arg1)) := by
  entry_read
  rfl

/-- The target list. -/
theorem W3_v6 (c : Dev nD) : W3 m ρ c (Proc.devRef .tc main_v6) = dstRaw (m ((c : Thread nD τ).loc main_arg1)) := by
  entry_read
  rfl

/-- The edges' weights. -/
theorem W3_v29 (c : Dev nD) : W3 m ρ c (Proc.devRef .tc main_v29) = edgeWeight (m ((c : Thread nD τ).loc main_arg1)) := by
  entry_read
  rfl

end Entry

variable (m : (ℓ : Loc nD τ sig) → Buf (Elt Ideal) ℓ) (ρ : Dev nD → PrngReg)

/-- Read a buffer after a stretch of host operations: each operation's result at its own buffer, any other buffer as
    the stretch found it. -/
local macro "host_read" : tactic =>
  `(tactic| (simp only [W1, W2, W3, W5, W8, W11, hostOps0, hostOps0_1, hostOps0_2, hostOps1, hostOps3, hostOps5]
             after_results_simp))

theorem W3_arg0 (c : Dev nD) : W3 m ρ c (Proc.devRef .tc main_arg0) = m ((c : Thread nD τ).loc main_arg0) := by
  host_read
  try rfl

theorem W3_arg2 (c : Dev nD) : W3 m ρ c (Proc.devRef .tc main_arg2) = m ((c : Thread nD τ).loc main_arg2) := by
  host_read
  try rfl

theorem W3_arg3 (c : Dev nD) : W3 m ρ c (Proc.devRef .tc main_arg3) = m ((c : Thread nD τ).loc main_arg3) := by
  host_read
  try rfl

theorem W3_arg4 (c : Dev nD) : W3 m ρ c (Proc.devRef .tc main_arg4) = m ((c : Thread nD τ).loc main_arg4) := by
  host_read
  try rfl

theorem W3_arg5 (c : Dev nD) : W3 m ρ c (Proc.devRef .tc main_arg5) = m ((c : Thread nD τ).loc main_arg5) := by
  host_read
  try rfl

theorem W3_arg6 (c : Dev nD) : W3 m ρ c (Proc.devRef .tc main_arg6) = m ((c : Thread nD τ).loc main_arg6) := by
  host_read
  try rfl

theorem W3_arg7 (c : Dev nD) : W3 m ρ c (Proc.devRef .tc main_arg7) = m ((c : Thread nD τ).loc main_arg7) := by
  host_read
  try rfl

/-! ## Carried across the stages: what no stage and no later host operation writes -/

theorem W4_v3 (c : Dev nD) : W4 m ρ c (Proc.devRef .tc main_v3) = W3 m ρ c (Proc.devRef .tc main_v3) := W4_of_ne m ρ c main_v3 (by decide)
theorem W5_v3 (c : Dev nD) : W5 m ρ c (Proc.devRef .tc main_v3) = W3 m ρ c (Proc.devRef .tc main_v3) :=
  (by host_read : W5 m ρ c (Proc.devRef .tc main_v3) = W4 m ρ c (Proc.devRef .tc main_v3)).trans (W4_v3 m ρ c)
theorem W6_v3 (c : Dev nD) : W6 m ρ c (Proc.devRef .tc main_v3) = W3 m ρ c (Proc.devRef .tc main_v3) := (W6_of_ne m ρ c main_v3 (by decide)).trans (W5_v3 m ρ c)
theorem W7_v3 (c : Dev nD) : W7 m ρ c (Proc.devRef .tc main_v3) = W3 m ρ c (Proc.devRef .tc main_v3) := (W7_of_ne m ρ c main_v3 (by decide)).trans (W6_v3 m ρ c)
theorem W8_v3 (c : Dev nD) : W8 m ρ c (Proc.devRef .tc main_v3) = W3 m ρ c (Proc.devRef .tc main_v3) :=
  (by host_read : W8 m ρ c (Proc.devRef .tc main_v3) = W7 m ρ c (Proc.devRef .tc main_v3)).trans (W7_v3 m ρ c)
theorem W9_v3 (c : Dev nD) : W9 m ρ c (Proc.devRef .tc main_v3) = W3 m ρ c (Proc.devRef .tc main_v3) := (W9_of_ne m ρ c main_v3 (by decide)).trans (W8_v3 m ρ c)
theorem W10_v3 (c : Dev nD) : W10 m ρ c (Proc.devRef .tc main_v3) = W3 m ρ c (Proc.devRef .tc main_v3) := (W10_of_ne m ρ c main_v3 (by decide)).trans (W9_v3 m ρ c)

theorem W4_v6 (c : Dev nD) : W4 m ρ c (Proc.devRef .tc main_v6) = W3 m ρ c (Proc.devRef .tc main_v6) := W4_of_ne m ρ c main_v6 (by decide)
theorem W5_v6 (c : Dev nD) : W5 m ρ c (Proc.devRef .tc main_v6) = W3 m ρ c (Proc.devRef .tc main_v6) :=
  (by host_read : W5 m ρ c (Proc.devRef .tc main_v6) = W4 m ρ c (Proc.devRef .tc main_v6)).trans (W4_v6 m ρ c)
theorem W6_v6 (c : Dev nD) : W6 m ρ c (Proc.devRef .tc main_v6) = W3 m ρ c (Proc.devRef .tc main_v6) := (W6_of_ne m ρ c main_v6 (by decide)).trans (W5_v6 m ρ c)
theorem W7_v6 (c : Dev nD) : W7 m ρ c (Proc.devRef .tc main_v6) = W3 m ρ c (Proc.devRef .tc main_v6) := (W7_of_ne m ρ c main_v6 (by decide)).trans (W6_v6 m ρ c)
theorem W8_v6 (c : Dev nD) : W8 m ρ c (Proc.devRef .tc main_v6) = W3 m ρ c (Proc.devRef .tc main_v6) :=
  (by host_read : W8 m ρ c (Proc.devRef .tc main_v6) = W7 m ρ c (Proc.devRef .tc main_v6)).trans (W7_v6 m ρ c)
theorem W9_v6 (c : Dev nD) : W9 m ρ c (Proc.devRef .tc main_v6) = W3 m ρ c (Proc.devRef .tc main_v6) := (W9_of_ne m ρ c main_v6 (by decide)).trans (W8_v6 m ρ c)
theorem W10_v6 (c : Dev nD) : W10 m ρ c (Proc.devRef .tc main_v6) = W3 m ρ c (Proc.devRef .tc main_v6) := (W10_of_ne m ρ c main_v6 (by decide)).trans (W9_v6 m ρ c)

theorem W4_v29 (c : Dev nD) : W4 m ρ c (Proc.devRef .tc main_v29) = W3 m ρ c (Proc.devRef .tc main_v29) := W4_of_ne m ρ c main_v29 (by decide)
theorem W5_v29 (c : Dev nD) : W5 m ρ c (Proc.devRef .tc main_v29) = W3 m ρ c (Proc.devRef .tc main_v29) :=
  (by host_read : W5 m ρ c (Proc.devRef .tc main_v29) = W4 m ρ c (Proc.devRef .tc main_v29)).trans (W4_v29 m ρ c)
theorem W6_v29 (c : Dev nD) : W6 m ρ c (Proc.devRef .tc main_v29) = W3 m ρ c (Proc.devRef .tc main_v29) := (W6_of_ne m ρ c main_v29 (by decide)).trans (W5_v29 m ρ c)
theorem W7_v29 (c : Dev nD) : W7 m ρ c (Proc.devRef .tc main_v29) = W3 m ρ c (Proc.devRef .tc main_v29) := (W7_of_ne m ρ c main_v29 (by decide)).trans (W6_v29 m ρ c)
theorem W8_v29 (c : Dev nD) : W8 m ρ c (Proc.devRef .tc main_v29) = W3 m ρ c (Proc.devRef .tc main_v29) :=
  (by host_read : W8 m ρ c (Proc.devRef .tc main_v29) = W7 m ρ c (Proc.devRef .tc main_v29)).trans (W7_v29 m ρ c)
theorem W9_v29 (c : Dev nD) : W9 m ρ c (Proc.devRef .tc main_v29) = W3 m ρ c (Proc.devRef .tc main_v29) := (W9_of_ne m ρ c main_v29 (by decide)).trans (W8_v29 m ρ c)
theorem W10_v29 (c : Dev nD) : W10 m ρ c (Proc.devRef .tc main_v29) = W3 m ρ c (Proc.devRef .tc main_v29) := (W10_of_ne m ρ c main_v29 (by decide)).trans (W9_v29 m ρ c)

theorem W4_arg3 (c : Dev nD) : W4 m ρ c (Proc.devRef .tc main_arg3) = W3 m ρ c (Proc.devRef .tc main_arg3) := W4_of_ne m ρ c main_arg3 (by decide)
theorem W5_arg3 (c : Dev nD) : W5 m ρ c (Proc.devRef .tc main_arg3) = W3 m ρ c (Proc.devRef .tc main_arg3) :=
  (by host_read : W5 m ρ c (Proc.devRef .tc main_arg3) = W4 m ρ c (Proc.devRef .tc main_arg3)).trans (W4_arg3 m ρ c)
theorem W6_arg3 (c : Dev nD) : W6 m ρ c (Proc.devRef .tc main_arg3) = W3 m ρ c (Proc.devRef .tc main_arg3) := (W6_of_ne m ρ c main_arg3 (by decide)).trans (W5_arg3 m ρ c)
theorem W7_arg3 (c : Dev nD) : W7 m ρ c (Proc.devRef .tc main_arg3) = W3 m ρ c (Proc.devRef .tc main_arg3) := (W7_of_ne m ρ c main_arg3 (by decide)).trans (W6_arg3 m ρ c)
theorem W8_arg3 (c : Dev nD) : W8 m ρ c (Proc.devRef .tc main_arg3) = W3 m ρ c (Proc.devRef .tc main_arg3) :=
  (by host_read : W8 m ρ c (Proc.devRef .tc main_arg3) = W7 m ρ c (Proc.devRef .tc main_arg3)).trans (W7_arg3 m ρ c)
theorem W9_arg3 (c : Dev nD) : W9 m ρ c (Proc.devRef .tc main_arg3) = W3 m ρ c (Proc.devRef .tc main_arg3) := (W9_of_ne m ρ c main_arg3 (by decide)).trans (W8_arg3 m ρ c)
theorem W10_arg3 (c : Dev nD) : W10 m ρ c (Proc.devRef .tc main_arg3) = W3 m ρ c (Proc.devRef .tc main_arg3) := (W10_of_ne m ρ c main_arg3 (by decide)).trans (W9_arg3 m ρ c)

theorem W4_arg4 (c : Dev nD) : W4 m ρ c (Proc.devRef .tc main_arg4) = W3 m ρ c (Proc.devRef .tc main_arg4) := W4_of_ne m ρ c main_arg4 (by decide)
theorem W5_arg4 (c : Dev nD) : W5 m ρ c (Proc.devRef .tc main_arg4) = W3 m ρ c (Proc.devRef .tc main_arg4) :=
  (by host_read : W5 m ρ c (Proc.devRef .tc main_arg4) = W4 m ρ c (Proc.devRef .tc main_arg4)).trans (W4_arg4 m ρ c)
theorem W6_arg4 (c : Dev nD) : W6 m ρ c (Proc.devRef .tc main_arg4) = W3 m ρ c (Proc.devRef .tc main_arg4) := (W6_of_ne m ρ c main_arg4 (by decide)).trans (W5_arg4 m ρ c)

theorem W4_arg5 (c : Dev nD) : W4 m ρ c (Proc.devRef .tc main_arg5) = W3 m ρ c (Proc.devRef .tc main_arg5) := W4_of_ne m ρ c main_arg5 (by decide)
theorem W5_arg5 (c : Dev nD) : W5 m ρ c (Proc.devRef .tc main_arg5) = W3 m ρ c (Proc.devRef .tc main_arg5) :=
  (by host_read : W5 m ρ c (Proc.devRef .tc main_arg5) = W4 m ρ c (Proc.devRef .tc main_arg5)).trans (W4_arg5 m ρ c)
theorem W6_arg5 (c : Dev nD) : W6 m ρ c (Proc.devRef .tc main_arg5) = W3 m ρ c (Proc.devRef .tc main_arg5) := (W6_of_ne m ρ c main_arg5 (by decide)).trans (W5_arg5 m ρ c)
theorem W7_arg5 (c : Dev nD) : W7 m ρ c (Proc.devRef .tc main_arg5) = W3 m ρ c (Proc.devRef .tc main_arg5) := (W7_of_ne m ρ c main_arg5 (by decide)).trans (W6_arg5 m ρ c)
theorem W8_arg5 (c : Dev nD) : W8 m ρ c (Proc.devRef .tc main_arg5) = W3 m ρ c (Proc.devRef .tc main_arg5) :=
  (by host_read : W8 m ρ c (Proc.devRef .tc main_arg5) = W7 m ρ c (Proc.devRef .tc main_arg5)).trans (W7_arg5 m ρ c)
theorem W9_arg5 (c : Dev nD) : W9 m ρ c (Proc.devRef .tc main_arg5) = W3 m ρ c (Proc.devRef .tc main_arg5) := (W9_of_ne m ρ c main_arg5 (by decide)).trans (W8_arg5 m ρ c)
theorem W10_arg5 (c : Dev nD) : W10 m ρ c (Proc.devRef .tc main_arg5) = W3 m ρ c (Proc.devRef .tc main_arg5) := (W10_of_ne m ρ c main_arg5 (by decide)).trans (W9_arg5 m ρ c)

theorem W4_arg6 (c : Dev nD) : W4 m ρ c (Proc.devRef .tc main_arg6) = W3 m ρ c (Proc.devRef .tc main_arg6) := W4_of_ne m ρ c main_arg6 (by decide)
theorem W5_arg6 (c : Dev nD) : W5 m ρ c (Proc.devRef .tc main_arg6) = W3 m ρ c (Proc.devRef .tc main_arg6) :=
  (by host_read : W5 m ρ c (Proc.devRef .tc main_arg6) = W4 m ρ c (Proc.devRef .tc main_arg6)).trans (W4_arg6 m ρ c)
theorem W6_arg6 (c : Dev nD) : W6 m ρ c (Proc.devRef .tc main_arg6) = W3 m ρ c (Proc.devRef .tc main_arg6) := (W6_of_ne m ρ c main_arg6 (by decide)).trans (W5_arg6 m ρ c)
theorem W7_arg6 (c : Dev nD) : W7 m ρ c (Proc.devRef .tc main_arg6) = W3 m ρ c (Proc.devRef .tc main_arg6) := (W7_of_ne m ρ c main_arg6 (by decide)).trans (W6_arg6 m ρ c)
theorem W8_arg6 (c : Dev nD) : W8 m ρ c (Proc.devRef .tc main_arg6) = W3 m ρ c (Proc.devRef .tc main_arg6) :=
  (by host_read : W8 m ρ c (Proc.devRef .tc main_arg6) = W7 m ρ c (Proc.devRef .tc main_arg6)).trans (W7_arg6 m ρ c)
theorem W9_arg6 (c : Dev nD) : W9 m ρ c (Proc.devRef .tc main_arg6) = W3 m ρ c (Proc.devRef .tc main_arg6) := (W9_of_ne m ρ c main_arg6 (by decide)).trans (W8_arg6 m ρ c)

theorem W4_arg7 (c : Dev nD) : W4 m ρ c (Proc.devRef .tc main_arg7) = W3 m ρ c (Proc.devRef .tc main_arg7) := W4_of_ne m ρ c main_arg7 (by decide)
theorem W5_arg7 (c : Dev nD) : W5 m ρ c (Proc.devRef .tc main_arg7) = W3 m ρ c (Proc.devRef .tc main_arg7) :=
  (by host_read : W5 m ρ c (Proc.devRef .tc main_arg7) = W4 m ρ c (Proc.devRef .tc main_arg7)).trans (W4_arg7 m ρ c)
theorem W6_arg7 (c : Dev nD) : W6 m ρ c (Proc.devRef .tc main_arg7) = W3 m ρ c (Proc.devRef .tc main_arg7) := (W6_of_ne m ρ c main_arg7 (by decide)).trans (W5_arg7 m ρ c)
theorem W7_arg7 (c : Dev nD) : W7 m ρ c (Proc.devRef .tc main_arg7) = W3 m ρ c (Proc.devRef .tc main_arg7) := (W7_of_ne m ρ c main_arg7 (by decide)).trans (W6_arg7 m ρ c)
theorem W8_arg7 (c : Dev nD) : W8 m ρ c (Proc.devRef .tc main_arg7) = W3 m ρ c (Proc.devRef .tc main_arg7) :=
  (by host_read : W8 m ρ c (Proc.devRef .tc main_arg7) = W7 m ρ c (Proc.devRef .tc main_arg7)).trans (W7_arg7 m ρ c)
theorem W9_arg7 (c : Dev nD) : W9 m ρ c (Proc.devRef .tc main_arg7) = W3 m ρ c (Proc.devRef .tc main_arg7) := (W9_of_ne m ρ c main_arg7 (by decide)).trans (W8_arg7 m ρ c)
theorem W10_arg7 (c : Dev nD) : W10 m ρ c (Proc.devRef .tc main_arg7) = W3 m ρ c (Proc.devRef .tc main_arg7) := (W10_of_ne m ρ c main_arg7 (by decide)).trans (W9_arg7 m ρ c)

/-- A vector reshaped to one row is that vector laid out as a row. -/
theorem reshape_row (b : Vec Ideal S128 .f32) : shapeCast S1x128 b shapeCasts_S128_S1x128 = Cert.Spec.rowOf b := by
  funext y
  obtain ⟨z, q, rfl⟩ : ∃ (z : Fin 1) (q : Fin 128), y = ix2 z q := ⟨y 0, y 1, eq_ix2 y⟩
  exact shapeCast_a_1a_apply b shapeCasts_S128_S1x128 z q

/-! ## Layer 1 -/

/-- The first product: the features times the first weight matrix. -/
theorem W4_v30 (c : Dev nD) : W4 m ρ c (Proc.devRef .tc main_v30) = Cert.Spec.rowsByCols (m ((c : Thread nD τ).loc main_arg0)) (m ((c : Thread nD τ).loc main_arg2)) :=
  (W4_arr m ρ c 2).trans ((Region0.final (V3 m ρ) c).trans
    (congrArg₂ Cert.Spec.rowsByCols (W3_arg0 m ρ c) (W3_arg2 m ρ c)))

/-- Its aggregation over the edges. -/
theorem W5_v43 (c : Dev nD) : W5 m ρ c (Proc.devRef .tc main_v43)
    = aggregate (m ((c : Thread nD τ).loc main_arg1)) (Cert.Spec.rowsByCols (m ((c : Thread nD τ).loc main_arg0)) (m ((c : Thread nD τ).loc main_arg2))) := by
  have h : W5 m ρ c (Proc.devRef .tc main_v43)
      = aggregate (F := Ideal) (m ((c : Thread nD τ).loc main_arg1)) (W4 m ρ c (Proc.devRef .tc main_v30)) := by
    host_read
    rw [W4_v3 m ρ c, W4_v6 m ρ c, W4_v29 m ρ c, W3_v3 m ρ c, W3_v6 m ρ c, W3_v29 m ρ c]
    rfl
  rw [h, W4_v30]

/-- The first bias as a row. -/
theorem W5_v44 (c : Dev nD) : W5 m ρ c (Proc.devRef .tc main_v44) = Cert.Spec.rowOf (m ((c : Thread nD τ).loc main_arg3)) := by
  have h : W5 m ρ c (Proc.devRef .tc main_v44) = shapeCast S1x128 (W4 m ρ c (Proc.devRef .tc main_arg3)) shapeCasts_S128_S1x128 := by
    host_read
    try rfl
  rw [h, W4_arg3 m ρ c, W3_arg3 m ρ c]
  exact reshape_row _

/-- The first layer's output. -/
theorem W6_v45 (c : Dev nD) : W6 m ρ c (Proc.devRef .tc main_v45)
    = Cert.Spec.addRowCut (aggregate (m ((c : Thread nD τ).loc main_arg1)) (Cert.Spec.rowsByCols (m ((c : Thread nD τ).loc main_arg0)) (m ((c : Thread nD τ).loc main_arg2)))) (Cert.Spec.rowOf (m ((c : Thread nD τ).loc main_arg3))) :=
  (W6_arr m ρ c 2).trans ((Region1.final (V5 m ρ) c).trans
    (congrArg₂ Cert.Spec.addRowCut (W5_v43 m ρ c) (W5_v44 m ρ c)))

/-! ## Layer 2 -/

/-- The first layer's output as one function of the arguments. -/
abbrev layer1 (c : Dev nD) : Vec Ideal S50000x128 .f32 :=
  Cert.Spec.addRowCut (aggregate (m ((c : Thread nD τ).loc main_arg1)) (Cert.Spec.rowsByCols (m ((c : Thread nD τ).loc main_arg0)) (m ((c : Thread nD τ).loc main_arg2)))) (Cert.Spec.rowOf (m ((c : Thread nD τ).loc main_arg3)))

theorem W7_v46 (c : Dev nD) : W7 m ρ c (Proc.devRef .tc main_v46) = Cert.Spec.rowsByCols (layer1 m c) (m ((c : Thread nD τ).loc main_arg4)) :=
  (W7_arr m ρ c 2).trans ((Region2.final (V6 m ρ) c).trans
    (congrArg₂ Cert.Spec.rowsByCols (W6_v45 m ρ c) ((W6_arg4 m ρ c).trans (W3_arg4 m ρ c))))

theorem W8_v59 (c : Dev nD) : W8 m ρ c (Proc.devRef .tc main_v59)
    = aggregate (m ((c : Thread nD τ).loc main_arg1)) (Cert.Spec.rowsByCols (layer1 m c) (m ((c : Thread nD τ).loc main_arg4))) := by
  have h : W8 m ρ c (Proc.devRef .tc main_v59)
      = aggregate (F := Ideal) (m ((c : Thread nD τ).loc main_arg1)) (W7 m ρ c (Proc.devRef .tc main_v46)) := by
    host_read
    rw [W7_v3 m ρ c, W7_v6 m ρ c, W7_v29 m ρ c, W3_v3 m ρ c, W3_v6 m ρ c, W3_v29 m ρ c]
    rfl
  rw [h, W7_v46]

theorem W8_v60 (c : Dev nD) : W8 m ρ c (Proc.devRef .tc main_v60) = Cert.Spec.rowOf (m ((c : Thread nD τ).loc main_arg5)) := by
  have h : W8 m ρ c (Proc.devRef .tc main_v60) = shapeCast S1x128 (W7 m ρ c (Proc.devRef .tc main_arg5)) shapeCasts_S128_S1x128 := by
    host_read
    try rfl
  rw [h, W7_arg5 m ρ c, W3_arg5 m ρ c]
  exact reshape_row _

theorem W9_v61 (c : Dev nD) : W9 m ρ c (Proc.devRef .tc main_v61)
    = Cert.Spec.addRowCut (aggregate (m ((c : Thread nD τ).loc main_arg1)) (Cert.Spec.rowsByCols (layer1 m c) (m ((c : Thread nD τ).loc main_arg4)))) (Cert.Spec.rowOf (m ((c : Thread nD τ).loc main_arg5))) :=
  (W9_arr m ρ c 2).trans ((Region3.final (V8 m ρ) c).trans
    (congrArg₂ Cert.Spec.addRowCut (W8_v59 m ρ c) (W8_v60 m ρ c)))

/-! ## Layer 3 -/

/-- The second layer's output as one function of the arguments. -/
abbrev layer2 (c : Dev nD) : Vec Ideal S50000x128 .f32 :=
  Cert.Spec.addRowCut (aggregate (m ((c : Thread nD τ).loc main_arg1)) (Cert.Spec.rowsByCols (layer1 m c) (m ((c : Thread nD τ).loc main_arg4)))) (Cert.Spec.rowOf (m ((c : Thread nD τ).loc main_arg5)))

theorem W10_v62 (c : Dev nD) : W10 m ρ c (Proc.devRef .tc main_v62) = Cert.Spec.rowsByCols (layer2 m c) (m ((c : Thread nD τ).loc main_arg6)) :=
  (W10_arr m ρ c 2).trans ((Region4.final (V9 m ρ) c).trans
    (congrArg₂ Cert.Spec.rowsByCols (W9_v61 m ρ c) ((W9_arg6 m ρ c).trans (W3_arg6 m ρ c))))

theorem W11_v75 (c : Dev nD) : W11 m ρ c (Proc.devRef .tc main_v75)
    = aggregate (m ((c : Thread nD τ).loc main_arg1)) (Cert.Spec.rowsByCols (layer2 m c) (m ((c : Thread nD τ).loc main_arg6))) := by
  have h : W11 m ρ c (Proc.devRef .tc main_v75)
      = aggregate (F := Ideal) (m ((c : Thread nD τ).loc main_arg1)) (W10 m ρ c (Proc.devRef .tc main_v62)) := by
    host_read
    rw [W10_v3 m ρ c, W10_v6 m ρ c, W10_v29 m ρ c, W3_v3 m ρ c, W3_v6 m ρ c, W3_v29 m ρ c]
    rfl
  rw [h, W10_v62]

theorem W11_v76 (c : Dev nD) : W11 m ρ c (Proc.devRef .tc main_v76) = Cert.Spec.rowOf (m ((c : Thread nD τ).loc main_arg7)) := by
  have h : W11 m ρ c (Proc.devRef .tc main_v76) = shapeCast S1x128 (W10 m ρ c (Proc.devRef .tc main_arg7)) shapeCasts_S128_S1x128 := by
    host_read
    try rfl
  rw [h, W10_arg7 m ρ c, W3_arg7 m ρ c]
  exact reshape_row _

/-- THE RESULT BUFFER at the last boundary: the third layer, without a cut-off, of the second layer's output. -/
theorem W12_v77 (c : Dev nD) : W12 m ρ c (Proc.devRef .tc main_v77)
    = Cert.Spec.addRow (aggregate (m ((c : Thread nD τ).loc main_arg1)) (Cert.Spec.rowsByCols (layer2 m c) (m ((c : Thread nD τ).loc main_arg6)))) (Cert.Spec.rowOf (m ((c : Thread nD τ).loc main_arg7))) :=
  (W12_arr m ρ c 2).trans ((Region5.final (V11 m ρ) c).trans
    (congrArg₂ Cert.Spec.addRow (W11_v75 m ρ c) (W11_v76 m ρ c)))

end Cert.KernelIdeal.KValue

end
-- ==== Proof.lean ====
/-
  The certificate of a three-layer graph convolution whose dense stages are tiled kernels, against the same network
  written with whole-array operations.

  Both programs compute, from node features x (50000 × 128), an edge list and three weight matrices and biases,
  layer by layer:  h ↦ A (h · W) + b,  cut off below at zero after the first two layers, where A — gather the rows at
  the edges' sources, scale by the edges' normalisation weights, add up at the edges' targets — is the same chain of
  host operations in both programs and depends on the edge list alone. The programs differ only in the dense stages:
  the kernel program computes h · W and the bias stages ten blocks of 5000 rows at a time (its operands passing
  through a narrower float format on the way, which at the ideal values is the identity), the reference computes them
  whole. A row of h · W depends on that row of h alone and the bias stages are entry by entry, so block by block and
  whole are the same functions (Region0 … Region5 against Spec.lean; RefSide.lean for the reference's operations), and
  the two results are the same term of the arguments (KValue.lean, RefSide.lean). No law beyond reading a matrix
  product as a sum over the shared coordinate is used, so the inputs' finiteness is never opened.

  The frames: each kernel program's is the generated one; the reference has no kernel, and its frame is its run with the
  result dropped. The idealized kernel program is the kernel program's own text read at the ideal values, so there is
  nothing to preserve.
-/
import proofs.«117493_j75342316306432_1_alg».proof.Defs
import proofs.«117493_j75342316306432_1_alg».proof.Proof.Gen.Kernel
import proofs.«117493_j75342316306432_1_alg».proof.Proof.Gen.Kernel.Skeleton
import proofs.«117493_j75342316306432_1_alg».proof.Proof.Gen.Kernel.Launch
import proofs.«117493_j75342316306432_1_alg».proof.Proof.Gen.Kernel.Points
import proofs.«117493_j75342316306432_1_alg».proof.Proof.Gen.Kernel.Frame
import proofs.«117493_j75342316306432_1_alg».proof.Proof.Gen.KernelIdeal
import proofs.«117493_j75342316306432_1_alg».proof.Proof.Gen.KernelIdeal.Skeleton
import proofs.«117493_j75342316306432_1_alg».proof.Proof.Gen.KernelIdeal.Launch
import proofs.«117493_j75342316306432_1_alg».proof.Proof.Gen.KernelIdeal.Points
import proofs.«117493_j75342316306432_1_alg».proof.Proof.Gen.KernelIdeal.Frame
import proofs.«117493_j75342316306432_1_alg».proof.Proof.Gen.ReferenceIdeal
import proofs.«117493_j75342316306432_1_alg».proof.Proof.Gen.Pre_finite_inputs
import proofs.«117493_j75342316306432_1_alg».proof.Proof.RefRun
import proofs.«117493_j75342316306432_1_alg».proof.Proof.RefSide
import proofs.«117493_j75342316306432_1_alg».proof.Proof.KRun
import proofs.«117493_j75342316306432_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the three layers of the arguments in their result buffers: the kernel program's run read at
    its last boundary, the reference's result term read as the composition it is, the arguments' agreement rewritten. -/
theorem algebraic : Cert.algebraic_KernelIdeal_ReferenceIdeal := by
  intro m ρ m' ρ' _ hagree
  refine ⟨fun c => Cert.KernelIdeal.Gen.W12 (F := Ideal) m ρ c (Proc.devRef .tc Cert.KernelIdeal.main_v77),
    Cert.KernelIdeal.GenRun.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2.1,
    (hagree c).2.2.2.2.1, (hagree c).2.2.2.2.2.1, (hagree c).2.2.2.2.2.2.1, (hagree c).2.2.2.2.2.2.2,
    Cert.ReferenceIdeal.RefValue.threeLayers_eq]
  exact (Cert.KernelIdeal.KValue.W12_v77 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
